-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S256x16 : Shape := ⟨2, ![256, 16]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_arg4 : FVec F S1024x16 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x16 .f32 := Host.absf main_arg4
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S256x1024 .f32) (main_arg1 : FVec F S256x16 .f32) (main_arg2 : FVec F S1024x1024 .f32) (main_arg3 : FVec F S1024 .f32) (main_arg4 : FVec F S1024x16 .f32) (main_arg5 : FVec F S1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S256x1024 : Shape := ⟨2, ![256, 1024]⟩
abbrev S256x16 : Shape := ⟨2, ![256, 16]⟩
abbrev S1024x1024 : Shape := ⟨2, ![1024, 1024]⟩
abbrev S1024 : Shape := ⟨1, ![1024]⟩
abbrev S1024x16 : Shape := ⟨2, ![1024, 16]⟩
abbrev S1x1024 : Shape := ⟨2, ![1, 1024]⟩
abbrev S1024x256 : Shape := ⟨2, ![1024, 256]⟩
abbrev S1x256 : Shape := ⟨2, ![1, 256]⟩
abbrev S256x256 : Shape := ⟨2, ![256, 256]⟩

abbrev nBuf : Space → Nat
  | .hbm => 9
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S256x16, .f32⟩
  | .hbm, ⟨2, _⟩ => ⟨S1024x1024, .f32⟩
  | .hbm, ⟨3, _⟩ => ⟨S1024, .f32⟩
  | .hbm, ⟨4, _⟩ => ⟨S1024x16, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S256x1024, .f32⟩
  | .local _ .vmem, ⟨0, _⟩ => ⟨S256x1024, .f32⟩
  | .local _ .vmem, ⟨1, _⟩ => ⟨S256x16, .f32⟩
  | .local _ .vmem, ⟨2, _⟩ => ⟨S1024x16, .f32⟩
  | .local _ .vmem, ⟨3, _⟩ => ⟨S1x1024, .f32⟩
  | .local _ .vmem, ⟨4, _⟩ => ⟨S1024x256, .f32⟩
  | .local _ .vmem, ⟨5, _⟩ => ⟨S1024x256, .f32⟩
  | .local _ .vmem, ⟨6, _⟩ => ⟨S1x256, .f32⟩
  | .local _ .vmem, ⟨7, _⟩ => ⟨S1x256, .f32⟩
  | .local _ .vmem, ⟨8, _⟩ => ⟨S256x256, .f32⟩
  | .local _ .vmem, ⟨9, _⟩ => ⟨S256x256, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S256x16_S256x16_0_0 : ∀ a, (![0, 0] : Fin 2 → Nat) a + S256x16.size a ≤ S256x16.size a
  h_S256x16 : 0 < S256x16.numel
  inb_S1024x16_S1024x16_0_0 : ∀ a, (![0, 0] : Fin 2 → Nat) a + S1024x16.size a ≤ S1024x16.size a
  h_S1024x16 : 0 < S1024x16.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x16_S1024x16_S256x1024_1_1_0_0_n_n_wf : DotDims.WF S256x16 S1024x16 S256x1024 [1] [1] [0] [0] [] []
  dot_S256x1024_S1024x256_S256x256_1_0_0_1_n_n_wf : DotDims.WF S256x1024 S1024x256 S256x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x1024.size a
  hwx0_0 : ∀ i : grid0.Coords, EltTy.bits .f32 = 32 ∨ (Rect.block (s := S256x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S1024x16.size a
  hwx0_2 : ∀ i : grid0.Coords, EltTy.bits .f32 = 32 ∨ (Rect.block (s := S1024x16) S1024x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x1024.size a
  hwx0_4 : ∀ i : grid0.Coords, EltTy.bits .f32 = 32 ∨ (Rect.block (s := S1024x1024) S1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x1024.size a
  hwx0_5 : ∀ i : grid0.Coords, EltTy.bits .f32 = 32 ∨ (Rect.block (s := S1x1024) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x1024.size a
  hwx0_6 : ∀ i : grid0.Coords, EltTy.bits .f32 = 32 ∨ (Rect.block (s := S256x1024) S256x256.size (cc0_transform_6 i) (hinb0_6 i)).WholeWords (EltTy.packing .f32)

variable [Facts₀]

def dot_S256x16_S1024x16_S256x1024_1_1_0_0_n_n : DotDims S256x16 S1024x16 S256x1024 where
  lhsContracting := [1]
  rhsContracting := [1]
  lhsNonContracting := [0]
  rhsNonContracting := [0]
  lhsBatch := []
  rhsBatch := []
  wf := dot_S256x16_S1024x16_S256x1024_1_1_0_0_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_arg0) S256x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S256x1024 : Shape := ⟨2, ![256, 1024]⟩
abbrev S256x16 : Shape := ⟨2, ![256, 16]⟩
abbrev S1024x1024 : Shape := ⟨2, ![1024, 1024]⟩
abbrev S1024 : Shape := ⟨1, ![1024]⟩
abbrev S1024x16 : Shape := ⟨2, ![1024, 16]⟩
abbrev S16x1024 : Shape := ⟨2, ![16, 1024]⟩
abbrev S1x1024 : Shape := ⟨2, ![1, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x16, .f32⟩
  | .hbm, ⟨2, _⟩ => ⟨S1024x1024, .f32⟩
  | .hbm, ⟨3, _⟩ => ⟨S1024, .f32⟩
  | .hbm, ⟨4, _⟩ => ⟨S1024x16, .f32⟩
  | .hbm, ⟨5, _⟩ => ⟨S1024, .f32⟩
  | .hbm, ⟨6, _⟩ => ⟨S16x1024, .f32⟩
  | .hbm, ⟨7, _⟩ => ⟨S256x1024, .f32⟩
  | .hbm, ⟨8, _⟩ => ⟨S1x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S1024x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  transposes_S1024x16_S16x1024_1_0 : S1024x16.Transposes [1, 0] S16x1024
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  bcast_S_S256x1024 : S_.BroadcastsInDim S256x1024 (![] : Fin 0 → Fin S256x1024.rank)
  dot_S256x16_S16x1024_S256x1024_1_0_0_1_n_n_wf : DotDims.WF S256x16 S16x1024 S256x1024 [1] [0] [0] [1] [] []
  dot_S256x1024_S1024x1024_S256x1024_1_0_0_1_n_n_wf : DotDims.WF S256x1024 S1024x1024 S256x1024 [1] [0] [0] [1] [] []

variable [Facts₀]

def dot_S256x16_S16x1024_S256x1024_1_0_0_1_n_n : DotDims S256x16 S16x1024 S256x1024 where
  lhsContracting := [1]
  rhsContracting := [0]
  lhsNonContracting := [0]
  rhsNonContracting := [1]
  lhsBatch := []
  rhsBatch := []
  wf := dot_S256x16_S16x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

class Facts : Prop extends Facts₀ where

variable [Facts]
-- ==== Proof.Demod.lean ====
/-
  The function both programs compute, stated once over literal shapes and no program.

  A linear layer whose weight is modulated per sample and then demodulated. With the modulation row
  `s b i = (∑ l, z b l * A i l) + a i` (a 16-term projection of the latent `z` plus an offset), entry `(b, o)` of the
  result is
      `(∑ i, (x b i * s b i) * W i o) * rsqrt ((∑ i, (s b i * s b i) * (W i o * W i o)) + ε) + β o`.
  It depends on the arguments only through ONE row of activations, ONE row of the modulation, ONE column of the
  weight and ONE bias entry: `entry` is that function of four pieces, and `layer` reads the pieces off the whole arrays.
  A program that tiles the output's columns evaluates `entry` on the same four pieces, read through its tile.
-/
import Idealize.ShloMosaic.PureOps.Ideal
import Idealize.ShloMosaic.PureOps.Ideal.Laws
import Idealize.ShloMosaic.Lib.ValueIdx

noncomputable section

open scoped BigOperators

namespace Cert.Demod

open Idealize.ShloMosaic Idealize.ShloMosaic.ValueIdx

/-- Activations and result: 256 samples by 1024 features. -/
abbrev SAct : Shape := ⟨2, ![256, 1024]⟩
/-- The latent: 256 samples by 16. -/
abbrev SLat : Shape := ⟨2, ![256, 16]⟩
/-- The weight: 1024 inputs by 1024 outputs. -/
abbrev SWgt : Shape := ⟨2, ![1024, 1024]⟩
/-- The latent's projection: 1024 inputs by 16. -/
abbrev SPrj : Shape := ⟨2, ![1024, 16]⟩
/-- A vector over the 1024 features. -/
abbrev SVec : Shape := ⟨1, ![1024]⟩

/-- The stabilizer under the square root, as the float word both programs print. -/
abbrev eps : EReal := Ideal.ofBits .f32 0x322BCC77#32

/-- Sample `b`'s modulation row: the latent row projected through `A`, plus the offset row `a`. -/
def modRow (z : SLat.Idx → EReal) (A : SPrj.Idx → EReal) (a : Fin 1024 → EReal) (b : Fin 256) : Fin 1024 → EReal :=
  fun i => (∑ l : Fin 16, z (ix2 b l) * A (ix2 i l)) + a i

/-- One entry of the result from its four pieces: the activation row `x`, the modulation row `s`, the weight column `w`
    and the bias entry `β`. The numerator is the modulated product, the factor the reciprocal root of the modulated
    column's squared norm. -/
def entry (x s w : Fin 1024 → EReal) (β : EReal) : EReal :=
  (∑ i : Fin 1024, (x i * s i) * w i) * Ideal.rsqrt ((∑ i : Fin 1024, (s i * s i) * (w i * w i)) + eps) + β

/-- The whole result array of the six arguments, index by index. -/
def layer (x : SAct.Idx → EReal) (z : SLat.Idx → EReal) (W : SWgt.Idx → EReal) (β : SVec.Idx → EReal)
    (A : SPrj.Idx → EReal) (a : SVec.Idx → EReal) : SAct.Idx → EReal :=
  fun j => entry (fun i => x (ix2 (j 0) i)) (modRow z A (fun i => a (ix1 i)) (j 0)) (fun i => W (ix2 i (j 1))) (β (ix1 (j 1)))

/-- `layer` at explicit coordinates. -/
theorem layer_apply (x : SAct.Idx → EReal) (z : SLat.Idx → EReal) (W : SWgt.Idx → EReal) (β : SVec.Idx → EReal)
    (A : SPrj.Idx → EReal) (a : SVec.Idx → EReal) (b : Fin 256) (o : Fin 1024) :
    layer x z W β A a (ix2 b o)
      = entry (fun i => x (ix2 b i)) (modRow z A (fun i => a (ix1 i)) b) (fun i => W (ix2 i o)) (β (ix1 o)) := rfl

end Cert.Demod

end
-- ==== Proof.RefLayer.lean ====
/-
  The reference computes `Demod.layer`.

  Its eighteen host operations, read one at a time at an index: a transpose turns the contraction over the
  projection's second axis into an ordinary matrix product, so the modulation at `(b, i)` is
  `(∑ l, z b l * A i l) + a i`; the two broadcasts of a vector along the samples read the vector at the column; the two
  big products are sums over the 1024 inputs; the host's reciprocal square root is the extended reals' one. What is
  left after those readings is `Demod.entry` of the four pieces, term for term.
-/
import proofs.«412335_j5171140624651_3_alg».proof.Proof.Gen.ReferenceIdeal.Read
import proofs.«412335_j5171140624651_3_alg».proof.Proof.Demod

noncomputable section

open scoped BigOperators

namespace Cert.ReferenceIdeal.RefLayer

open Cert.ReferenceIdeal Cert.ReferenceIdeal.Read Idealize.ShloMosaic Idealize.ShloMosaic.ValueIdx

/-! ## The composed index maps at explicit coordinates -/

theorem lidx_v12 (b : Fin 256) (o k : Fin 1024) : lidx_main_v12 (ix2 b o) k = ix2 b k :=
  funext fun a => Fin.ext (by match a with | ⟨0, _⟩ => rfl | ⟨1, _⟩ => rfl)
theorem ridx_v12 (b : Fin 256) (o k : Fin 1024) : ridx_main_v12 (ix2 b o) k = ix2 k o :=
  funext fun a => Fin.ext (by match a with | ⟨0, _⟩ => rfl | ⟨1, _⟩ => rfl)
theorem lidx_v7 (b : Fin 256) (o k : Fin 1024) : lidx_main_v7 (ix2 b o) k = ix2 b k :=
  funext fun a => Fin.ext (by match a with | ⟨0, _⟩ => rfl | ⟨1, _⟩ => rfl)
theorem ridx_v7 (b : Fin 256) (o k : Fin 1024) : ridx_main_v7 (ix2 b o) k = ix2 k o :=
  funext fun a => Fin.ext (by match a with | ⟨0, _⟩ => rfl | ⟨1, _⟩ => rfl)
theorem lidx_v1 (b : Fin 256) (i : Fin 1024) (l : Fin 16) : lidx_main_v1 (ix2 b i) l = ix2 b l :=
  funext fun a => Fin.ext (by match a with | ⟨0, _⟩ => rfl | ⟨1, _⟩ => rfl)
theorem ridx_v1 (b : Fin 256) (i : Fin 1024) (l : Fin 16) : ridx_main_v1 (ix2 b i) l = ix2 l i :=
  funext fun a => Fin.ext (by match a with | ⟨0, _⟩ => rfl | ⟨1, _⟩ => rfl)
theorem idx_v0 (l : Fin 16) (i : Fin 1024) : idx_main_v0 (ix2 l i) = ix2 i l :=
  funext fun a => Fin.ext (by match a with | ⟨0, _⟩ => rfl | ⟨1, _⟩ => rfl)
theorem idx_v3 (b : Fin 256) (i : Fin 1024) : idx_main_v3 (ix2 b i) = ix2 (0 : Fin 1) i :=
  funext fun a => Fin.ext (by match a with | ⟨0, _⟩ => rfl | ⟨1, _⟩ => rfl)
theorem idx_v2 (r : Fin 1) (i : Fin 1024) : idx_main_v2 (ix2 r i) = ix1 i :=
  funext fun a => Fin.ext (by match a with | ⟨0, _⟩ => rfl)
theorem idx_v15 (b : Fin 256) (o : Fin 1024) : idx_main_v15 (ix2 b o) = ix2 (0 : Fin 1) o :=
  funext fun a => Fin.ext (by match a with | ⟨0, _⟩ => rfl | ⟨1, _⟩ => rfl)
theorem idx_v14 (r : Fin 1) (o : Fin 1024) : idx_main_v14 (ix2 r o) = ix1 o :=
  funext fun a => Fin.ext (by match a with | ⟨0, _⟩ => rfl)

/-! ## The modulation, then the result -/

/-- The reference's modulation `%4` at `(b, i)` is the modulation row's entry. -/
theorem modulation_apply (x1 : (⟨S256x16, .f32⟩ : BufTy).Contents (Elt Ideal)) (x4 : (⟨S1024x16, .f32⟩ : BufTy).Contents (Elt Ideal))
    (x5 : (⟨S1024, .f32⟩ : BufTy).Contents (Elt Ideal)) (b : Fin 256) (i : Fin 1024) :
    val_main_v4 (F := Ideal) x1 x4 x5 (ix2 b i) = Demod.modRow x1 x4 (fun i => x5 (ix1 i)) b i := by
  rw [val_main_v4_apply, val_main_v1_apply, val_main_v3_apply, idx_v3, val_main_v2_apply, idx_v2]
  simp only [lidx_v1, ridx_v1, val_main_v0_apply, idx_v0, Ideal.addf_def]
  rfl

/-- The reference's last stage is `Demod.layer` of its six arguments. -/
theorem result_eq (x0 : (⟨S256x1024, .f32⟩ : BufTy).Contents (Elt Ideal)) (x1 : (⟨S256x16, .f32⟩ : BufTy).Contents (Elt Ideal))
    (x2 : (⟨S1024x1024, .f32⟩ : BufTy).Contents (Elt Ideal)) (x3 : (⟨S1024, .f32⟩ : BufTy).Contents (Elt Ideal))
    (x4 : (⟨S1024x16, .f32⟩ : BufTy).Contents (Elt Ideal)) (x5 : (⟨S1024, .f32⟩ : BufTy).Contents (Elt Ideal)) :
    val_main_v16 (F := Ideal) x0 x1 x2 x3 x4 x5 = Demod.layer x0 x1 x2 x3 x4 x5 := by
  funext j
  obtain ⟨b, o, rfl⟩ : ∃ (b : Fin 256) (o : Fin 1024), j = ix2 b o := ⟨j 0, j 1, eq_ix2 j⟩
  rw [Demod.layer_apply, val_main_v16_apply, val_main_v13_apply, val_main_v12_apply, val_main_v10_apply, val_main_v9_apply,
    val_main_v7_apply, val_main_v8_apply, val_main_cst_apply, val_main_v15_apply, idx_v15, val_main_v14_apply, idx_v14]
  simp only [lidx_v12, ridx_v12, lidx_v7, ridx_v7, val_main_v11_apply, val_main_v5_apply, val_main_v6_apply, modulation_apply,
    Ideal.addf_def, Ideal.mulf_def, Ideal.hostUnary_rsqrt_def, Ideal.ofBits_def]
  rfl

end Cert.ReferenceIdeal.RefLayer

end
-- ==== Proof.TileEntry.lean ====
/-
  One tile of the kernel's body, read at an index.

  The body loads the whole activations, latent, projection and offset row, one 256-column tile of the weight and of
  the bias row, and stores ONE value: three products on the matrix unit, each into a zero accumulator, joined by
  pointwise arithmetic. Over the extended reals a product into zero is the plain sum over the contracted axis, the
  narrowings to half precision before the two big products are the identity, and a row broadcast over the samples
  reads the row at the column. So the stored tile at `(p, q)` is `Demod.entry` of sample `p`'s activation row, its
  modulation row, the tile's weight column `q` and the tile's bias entry `q`.
-/
import proofs.«412335_j5171140624651_3_alg».proof.Proof.Gen.KernelIdeal.Skeleton
import proofs.«412335_j5171140624651_3_alg».proof.Proof.Demod
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.TileEntry

open Cert.KernelIdeal Cert.KernelIdeal.Gen Idealize.ShloMosaic Idealize.ShloMosaic.ValueIdx

/-! ## The two contractions' operand indices

The projection contracts the SECOND axis of both operands (latent `[256,16]` against projection `[1024,16]`); the two big
products contract the left's second axis with the right's first (`[256,1024]` against `[1024,256]`). -/

theorem projL_0 (i : S256x1024.Idx) (q : dot_S256x16_S1024x16_S256x1024_1_1_0_0_n_n.contr.Idx) :
    (dot_S256x16_S1024x16_S256x1024_1_1_0_0_n_n.lhsIdx i q 0).val = (i 0).val := by
  unfold DotDims.lhsIdx
  rw [dif_neg (show ¬(0 : Fin S256x16.rank) ∈ dot_S256x16_S1024x16_S256x1024_1_1_0_0_n_n.lhsBatch by decide), dif_pos (show (0 : Fin S256x16.rank) ∈ dot_S256x16_S1024x16_S256x1024_1_1_0_0_n_n.lhsNonContracting by decide)]
  rfl
theorem projL_1 (i : S256x1024.Idx) (q : dot_S256x16_S1024x16_S256x1024_1_1_0_0_n_n.contr.Idx) :
    (dot_S256x16_S1024x16_S256x1024_1_1_0_0_n_n.lhsIdx i q 1).val = (q ⟨0, by decide⟩).val :=
  dot_S256x16_S1024x16_S256x1024_1_1_0_0_n_n.lhsIdx_val_of_single rfl i q
theorem projR_0 (i : S256x1024.Idx) (q : dot_S256x16_S1024x16_S256x1024_1_1_0_0_n_n.contr.Idx) :
    (dot_S256x16_S1024x16_S256x1024_1_1_0_0_n_n.rhsIdx i q 0).val = (i 1).val := by
  unfold DotDims.rhsIdx
  rw [dif_neg (show ¬(0 : Fin S1024x16.rank) ∈ dot_S256x16_S1024x16_S256x1024_1_1_0_0_n_n.rhsBatch by decide), dif_pos (show (0 : Fin S1024x16.rank) ∈ dot_S256x16_S1024x16_S256x1024_1_1_0_0_n_n.rhsNonContracting by decide)]
  rfl
theorem projR_1 (i : S256x1024.Idx) (q : dot_S256x16_S1024x16_S256x1024_1_1_0_0_n_n.contr.Idx) :
    (dot_S256x16_S1024x16_S256x1024_1_1_0_0_n_n.rhsIdx i q 1).val = (q ⟨0, by decide⟩).val :=
  dot_S256x16_S1024x16_S256x1024_1_1_0_0_n_n.rhsIdx_val_of_single rfl i q

theorem prodL_0 (i : S256x256.Idx) (q : dot_S256x1024_S1024x256_S256x256_1_0_0_1_n_n.contr.Idx) :
    (dot_S256x1024_S1024x256_S256x256_1_0_0_1_n_n.lhsIdx i q 0).val = (i 0).val := by
  unfold DotDims.lhsIdx
  rw [dif_neg (show ¬(0 : Fin S256x1024.rank) ∈ dot_S256x1024_S1024x256_S256x256_1_0_0_1_n_n.lhsBatch by decide), dif_pos (show (0 : Fin S256x1024.rank) ∈ dot_S256x1024_S1024x256_S256x256_1_0_0_1_n_n.lhsNonContracting by decide)]
  rfl
theorem prodL_1 (i : S256x256.Idx) (q : dot_S256x1024_S1024x256_S256x256_1_0_0_1_n_n.contr.Idx) :
    (dot_S256x1024_S1024x256_S256x256_1_0_0_1_n_n.lhsIdx i q 1).val = (q ⟨0, by decide⟩).val :=
  dot_S256x1024_S1024x256_S256x256_1_0_0_1_n_n.lhsIdx_val_of_single rfl i q
theorem prodR_0 (i : S256x256.Idx) (q : dot_S256x1024_S1024x256_S256x256_1_0_0_1_n_n.contr.Idx) :
    (dot_S256x1024_S1024x256_S256x256_1_0_0_1_n_n.rhsIdx i q 0).val = (q ⟨0, by decide⟩).val :=
  dot_S256x1024_S1024x256_S256x256_1_0_0_1_n_n.rhsIdx_val_of_single rfl i q
theorem prodR_1 (i : S256x256.Idx) (q : dot_S256x1024_S1024x256_S256x256_1_0_0_1_n_n.contr.Idx) :
    (dot_S256x1024_S1024x256_S256x256_1_0_0_1_n_n.rhsIdx i q 1).val = (i 1).val := by
  unfold DotDims.rhsIdx
  rw [dif_neg (show ¬(1 : Fin S1024x256.rank) ∈ dot_S256x1024_S1024x256_S256x256_1_0_0_1_n_n.rhsBatch by decide), dif_pos (show (1 : Fin S1024x256.rank) ∈ dot_S256x1024_S1024x256_S256x256_1_0_0_1_n_n.rhsNonContracting by decide)]
  rfl

/-! ## The products into zero, as sums -/

/-- The projection into a zero accumulator at `(p, i)`: the sum over the 16 latent coordinates of the latent row `p`
    against the projection's row `i`. -/
theorem proj_apply {φ₁ φ₂ : FTy} (l : FVec Ideal S256x16 φ₁) (r : FVec Ideal S1024x16 φ₂) (p : Fin 256) (i : Fin 1024) :
    FloatOps.matmul dot_S256x16_S1024x16_S256x1024_1_1_0_0_n_n none l r (constant S256x1024 .f32 0x00000000#32) (ix2 p i)
      = ∑ k : Fin 16, l (ix2 p k) * r (ix2 i k) := by
  rw [Ideal.matmul_constant_zero_apply, ← Equiv.sum_comp (contrEquiv1 dot_S256x16_S1024x16_S256x1024_1_1_0_0_n_n 16 rfl rfl).symm]
  refine Finset.sum_congr rfl fun k _ => ?_
  have hk := contrEquiv1_symm_val dot_S256x16_S1024x16_S256x1024_1_1_0_0_n_n 16 rfl rfl k
  have el : dot_S256x16_S1024x16_S256x1024_1_1_0_0_n_n.lhsIdx (ix2 p i) ((contrEquiv1 dot_S256x16_S1024x16_S256x1024_1_1_0_0_n_n 16 rfl rfl).symm k) = ix2 p k := funext fun a => Fin.ext (by
    match a with
    | ⟨0, _⟩ => exact projL_0 _ _
    | ⟨1, _⟩ => exact (projL_1 _ _).trans hk)
  have er : dot_S256x16_S1024x16_S256x1024_1_1_0_0_n_n.rhsIdx (ix2 p i) ((contrEquiv1 dot_S256x16_S1024x16_S256x1024_1_1_0_0_n_n 16 rfl rfl).symm k) = ix2 i k := funext fun a => Fin.ext (by
    match a with
    | ⟨0, _⟩ => exact projR_0 _ _
    | ⟨1, _⟩ => exact (projR_1 _ _).trans hk)
  rw [el, er]

/-- A big product into a zero accumulator at `(p, q)`: the sum over the 1024 inputs of the left's row `p` against the
    right's column `q`. -/
theorem prod_apply {φ₁ φ₂ : FTy} (l : FVec Ideal S256x1024 φ₁) (r : FVec Ideal S1024x256 φ₂) (p q : Fin 256) :
    FloatOps.matmul dot_S256x1024_S1024x256_S256x256_1_0_0_1_n_n none l r (constant S256x256 .f32 0x00000000#32) (ix2 p q)
      = ∑ k : Fin 1024, l (ix2 p k) * r (ix2 k q) := by
  rw [Ideal.matmul_constant_zero_apply, ← Equiv.sum_comp (contrEquiv1 dot_S256x1024_S1024x256_S256x256_1_0_0_1_n_n 1024 rfl rfl).symm]
  refine Finset.sum_congr rfl fun k _ => ?_
  have hk := contrEquiv1_symm_val dot_S256x1024_S1024x256_S256x256_1_0_0_1_n_n 1024 rfl rfl k
  have el : dot_S256x1024_S1024x256_S256x256_1_0_0_1_n_n.lhsIdx (ix2 p q) ((contrEquiv1 dot_S256x1024_S1024x256_S256x256_1_0_0_1_n_n 1024 rfl rfl).symm k) = ix2 p k := funext fun a => Fin.ext (by
    match a with
    | ⟨0, _⟩ => exact prodL_0 _ _
    | ⟨1, _⟩ => exact (prodL_1 _ _).trans hk)
  have er : dot_S256x1024_S1024x256_S256x256_1_0_0_1_n_n.rhsIdx (ix2 p q) ((contrEquiv1 dot_S256x1024_S1024x256_S256x256_1_0_0_1_n_n 1024 rfl rfl).symm k) = ix2 k q := funext fun a => Fin.ext (by
    match a with
    | ⟨0, _⟩ => exact (prodR_0 _ _).trans hk
    | ⟨1, _⟩ => exact prodR_1 _ _)
  rw [el, er]

/-! ## The modulation as the body forms it, then the stored tile -/

section Body
variable {F : FTy → Type} [FloatOps F]

/-- The body's modulation `%7`: the projection into zero plus the offset row broadcast over the samples. -/
def bodyMod (v1 : Vec F S256x16 .f32) (v2 : Vec F S1024x16 .f32) (v3 : Vec F S1x1024 .f32) : FVec F S256x1024 .f32 :=
  addf (FloatOps.matmul dot_S256x16_S1024x16_S256x1024_1_1_0_0_n_n none v1 v2 (constant S256x1024 .f32 0x00000000#32))
    (broadcastTo S256x1024 (shapeCast S1x1024 v3 shapeCasts_S1x1024_S1x1024) broadcasts_S1x1024_S256x1024)

/-- The stored value over the modulation: the payload's own operations, the modulation named. -/
theorem pay_eq (v0 : Vec F S256x1024 .f32) (v1 : Vec F S256x16 .f32) (v2 : Vec F S1024x16 .f32) (v3 : Vec F S1x1024 .f32)
    (v12 : Vec F S1024x256 .f32) (v22 : Vec F S1x256 .f32) :
    k0_pay1 v0 v1 v2 v3 v12 v22
      = addf (mulf (FloatOps.matmul dot_S256x1024_S1024x256_S256x256_1_0_0_1_n_n none (truncf .bf16 (mulf v0 (bodyMod v1 v2 v3)) bitsLt_bf16_f32)
                (truncf .bf16 v12 bitsLt_bf16_f32) (constant S256x256 .f32 0x00000000#32))
            (rsqrt (addf (FloatOps.matmul dot_S256x1024_S1024x256_S256x256_1_0_0_1_n_n none (truncf .bf16 (mulf (bodyMod v1 v2 v3) (bodyMod v1 v2 v3)) bitsLt_bf16_f32)
                (truncf .bf16 (mulf v12 v12) bitsLt_bf16_f32) (constant S256x256 .f32 0x00000000#32))
              (broadcast S256x256 (Scalar.ofBits .f32 0x322BCC77#32)))))
          (broadcastTo S256x256 (shapeCast S1x256 v22 shapeCasts_S1x256_S1x256) broadcasts_S1x256_S256x256) := rfl

end Body

/-- The body's modulation at `(b, i)` is the modulation row's entry, the offset read off the loaded `[1,1024]` row. -/
theorem bodyMod_apply (v1 : Vec Ideal S256x16 .f32) (v2 : Vec Ideal S1024x16 .f32) (v3 : Vec Ideal S1x1024 .f32) (b : Fin 256) (i : Fin 1024) :
    bodyMod (F := Ideal) v1 v2 v3 (ix2 b i) = Demod.modRow v1 v2 (fun i => v3 (ix2 (0 : Fin 1) i)) b i := by
  unfold bodyMod Demod.modRow
  rw [addf_apply, proj_apply, shapeCast_self, broadcastTo_1b_ab_apply]

/-- THE STORED TILE at `(p, q)`: `Demod.entry` of sample `p`'s activation row, its modulation row, the loaded weight tile's
    column `q` and the loaded bias tile's entry `q`. -/
theorem pay_apply (v0 : Vec Ideal S256x1024 .f32) (v1 : Vec Ideal S256x16 .f32) (v2 : Vec Ideal S1024x16 .f32) (v3 : Vec Ideal S1x1024 .f32)
    (v12 : Vec Ideal S1024x256 .f32) (v22 : Vec Ideal S1x256 .f32) (p q : Fin 256) :
    k0_pay1 (F := Ideal) v0 v1 v2 v3 v12 v22 (ix2 p q)
      = Demod.entry (fun i => v0 (ix2 p i)) (Demod.modRow v1 v2 (fun i => v3 (ix2 (0 : Fin 1) i)) p) (fun i => v12 (ix2 i q)) (v22 (ix2 (0 : Fin 1) q)) := by
  rw [pay_eq, addf_apply, mulf_apply, prod_apply, shapeCast_self, broadcastTo_1b_ab_apply]
  show _ * Ideal.rsqrt (FloatOps.matmul (F := Ideal) dot_S256x1024_S1024x256_S256x256_1_0_0_1_n_n none _ _ (constant S256x256 .f32 0x00000000#32) (ix2 p q) + Ideal.ofBits .f32 0x322BCC77#32) + _ = _
  rw [prod_apply]
  simp only [truncf_apply, mulf_apply, bodyMod_apply]
  rfl

end Cert.KernelIdeal.TileEntry

end
-- ==== Proof.KernelLayer.lean ====
/-
  The kernel computes `Demod.layer`.

  The grid has four points; point `t` computes the 256 output columns `256 t … 256 t + 255`. Four windows hold whole arrays
  at every point (activations, latent, projection, and the offset vector the host has reshaped to one row); the weight's
  window holds its column tile `t`, the bias row's window (reshaped the same way) its column tile `t`. So at point `t` the
  stored tile's entry `(p, q)` (TileEntry) is `Demod.entry` of pieces that are exactly the pieces of `Demod.layer` at
  `(p, 256 t + q)`: what point `t` writes back is block `t` of `layer`. The four column tiles cover the array — column `o`
  lies in tile `o / 256` — so after the run the result array IS `layer` of the six arguments.
-/
import proofs.«412335_j5171140624651_3_alg».proof.Proof.Gen.KernelIdeal.Value
import proofs.«412335_j5171140624651_3_alg».proof.Proof.TileEntry
import Idealize.ShloMosaic.Lib.StableHlo.Run
import Idealize.ShloMosaic.Lib.ValueLayout

noncomputable section

open scoped BigOperators

namespace Cert.KernelIdeal.KernelLayer

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-- `Demod.layer` of the six argument arrays as launched. -/
def result (c : Dev nD) : S256x1024.Idx → EReal :=
  Demod.layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem zeros : (![0, 0] : Fin 2 → Nat) = fun _ => 0 := funext fun a => by fin_cases a <;> rfl

/-! ## The two rows the host reshapes before the region -/

/-- The offset vector as the region finds it: one row of 1024. -/
theorem offsetRow (c : Dev nD) : (V m c main_v0 : S1x1024.Idx → EReal) = shapeCast S1x1024 (m ((c : Thread nD τ).loc main_arg5)) shapeCasts_S1024_S1x1024 := by
  dsimp only [Gen.V, Gen.hostOps0]
  after_results
  rfl

/-- The bias vector as the region finds it: one row of 1024. -/
theorem biasRow (c : Dev nD) : (V m c main_v1 : S1x1024.Idx → EReal) = shapeCast S1x1024 (m ((c : Thread nD τ).loc main_arg3)) shapeCasts_S1024_S1x1024 := by
  dsimp only [Gen.V, Gen.hostOps0]
  after_results
  rfl

/-! ## Where each window's block sits -/

/-- The printed index maps over the four points: the first four windows never move, the weight's, the bias row's and
    the output's windows sit at column tile `t`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ t.val < 4 :=
  (by decide +kernel : ∀ t : Fin grid0.N, _)

/-- The activations' block is the whole array. -/
theorem blkAct (c : Dev nD) (t : Fin cfg0.N) : (iblk m c 0 t : Vec Ideal S256x1024 .f32) = m ((c : Thread nD τ).loc main_arg0) := by
  obtain ⟨e0, e1, -⟩ := idx_facts t
  funext y
  show V m c main_arg0 (((cfg0.win 0).blk t).view.emb y) = _
  rw [V_main_arg0]
  refine congrArg _ (funext fun a => Fin.ext ?_)
  match a with
  | ⟨0, _⟩ => show win0_0.index t (0 : Fin 2) * 256 + 1 * (y 0).val = (y 0).val; omega
  | ⟨1, _⟩ => show win0_0.index t (1 : Fin 2) * 1024 + 1 * (y 1).val = (y 1).val; omega

/-- The latent's block is the whole array. -/
theorem blkLat (c : Dev nD) (t : Fin cfg0.N) : (iblk m c 1 t : Vec Ideal S256x16 .f32) = m ((c : Thread nD τ).loc main_arg1) := by
  obtain ⟨-, -, e0, e1, -⟩ := idx_facts t
  funext y
  show V m c main_arg1 (((cfg0.win 1).blk t).view.emb y) = _
  rw [V_main_arg1]
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 16 + 1 * (y 1).val = (y 1).val; omega

/-- The projection's block is the whole array. -/
theorem blkPrj (c : Dev nD) (t : Fin cfg0.N) : (iblk m c 2 t : Vec Ideal S1024x16 .f32) = m ((c : Thread nD τ).loc main_arg4) := by
  obtain ⟨-, -, -, -, e0, e1, -⟩ := idx_facts t
  funext y
  show V m c main_arg4 (((cfg0.win 2).blk t).view.emb y) = _
  rw [V_main_arg4]
  refine congrArg _ (funext fun a => Fin.ext ?_)
  match a with
  | ⟨0, _⟩ => show win0_2.index t (0 : Fin 2) * 1024 + 1 * (y 0).val = (y 0).val; omega
  | ⟨1, _⟩ => show win0_2.index t (1 : Fin 2) * 16 + 1 * (y 1).val = (y 1).val; omega

/-- The offset row's block at column `i` is the offset vector at `i`. -/
theorem blkOff (c : Dev nD) (t : Fin cfg0.N) (i : Fin 1024) :
    (iblk m c 3 t : Vec Ideal S1x1024 .f32) (ix2 (0 : Fin 1) i) = m ((c : Thread nD τ).loc main_arg5) (ix1 i) := by
  obtain ⟨-, -, -, -, -, -, e0, e1, -⟩ := idx_facts t
  show (V m c main_v0 : S1x1024.Idx → EReal) (((cfg0.win 3).blk t).view.emb (ix2 (0 : Fin 1) i)) = _
  rw [offsetRow, ← shapeCast_a_1a_apply (m ((c : Thread nD τ).loc main_arg5)) shapeCasts_S1024_S1x1024 (0 : Fin 1) i]
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * i.val = i.val; omega

/-- The weight's block at `(i, q)` is the weight at `(i, 256 t + q)`. -/
theorem blkWgt (c : Dev nD) (t : Fin cfg0.N) (i : Fin 1024) (q : Fin 256) (o : Fin 1024) (ho : o.val = 256 * t.val + q.val) :
    (iblk m c 4 t : Vec Ideal S1024x256 .f32) (ix2 i q) = m ((c : Thread nD τ).loc main_arg2) (ix2 i o) := by
  obtain ⟨-, -, -, -, -, -, -, -, e0, e1, -⟩ := idx_facts t
  show V m c main_arg2 (((cfg0.win 4).blk t).view.emb (ix2 i q)) = _
  rw [V_main_arg2]
  refine congrArg _ (funext fun a => Fin.ext ?_)
  match a with
  | ⟨0, _⟩ => show win0_4.index t (0 : Fin 2) * 1024 + 1 * i.val = i.val; omega
  | ⟨1, _⟩ => show win0_4.index t (1 : Fin 2) * 256 + 1 * q.val = o.val; omega

/-- The bias row's block at column `q` is the bias vector at `256 t + q`. -/
theorem blkBias (c : Dev nD) (t : Fin cfg0.N) (q : Fin 256) (o : Fin 1024) (ho : o.val = 256 * t.val + q.val) :
    (iblk m c 5 t : Vec Ideal S1x256 .f32) (ix2 (0 : Fin 1) q) = m ((c : Thread nD τ).loc main_arg3) (ix1 o) := by
  obtain ⟨-, -, -, -, -, -, -, -, -, -, e0, e1, -⟩ := idx_facts t
  show (V m c main_v1 : S1x1024.Idx → EReal) (((cfg0.win 5).blk t).view.emb (ix2 (0 : Fin 1) q)) = _
  rw [biasRow, ← shapeCast_a_1a_apply (m ((c : Thread nD τ).loc main_arg3)) shapeCasts_S1024_S1x1024 (0 : Fin 1) o]
  refine congrArg _ (funext fun a => Fin.ext ?_)
  match a with
  | ⟨0, _⟩ => show win0_5.index t (0 : Fin 2) * 1 + 1 * 0 = 0; omega
  | ⟨1, _⟩ => show win0_5.index t (1 : Fin 2) * 256 + 1 * q.val = o.val; omega

/-! ## What a point writes back, the cover, the array -/

/-- The stored tile of loads that are those pieces of the arrays is `layer` at the tile's place: stated over loads of
    the literal types, the window blocks put in afterwards. -/
theorem tile_eq (X : S256x1024.Idx → EReal) (Z : S256x16.Idx → EReal) (W : S1024x1024.Idx → EReal) (β : S1024.Idx → EReal)
    (A : S1024x16.Idx → EReal) (a : S1024.Idx → EReal)
    (x3 : Vec Ideal S1x1024 .f32) (x4 : Vec Ideal S1024x256 .f32) (x5 : Vec Ideal S1x256 .f32) (n : Nat)
    (h3 : ∀ i : Fin 1024, x3 (ix2 (0 : Fin 1) i) = a (ix1 i))
    (h4 : ∀ (i : Fin 1024) (q : Fin 256) (o : Fin 1024), o.val = 256 * n + q.val → x4 (ix2 i q) = W (ix2 i o))
    (h5 : ∀ (q : Fin 256) (o : Fin 1024), o.val = 256 * n + q.val → x5 (ix2 (0 : Fin 1) q) = β (ix1 o))
    (p q : Fin 256) (o : Fin 1024) (ho : o.val = 256 * n + q.val) :
    k0_pay1 (F := Ideal) X Z A x3 x4 x5 (ix2 p q) = Demod.layer X Z W β A a (ix2 p o) := by
  rw [TileEntry.pay_apply, Demod.layer_apply, h5 q o ho]
  have hw : (fun i => x4 (ix2 i q)) = fun i => W (ix2 i o) := funext fun i => h4 i q o ho
  have ha : (fun i => x3 (ix2 (0 : Fin 1) i)) = fun i => a (ix1 i) := funext h3
  rw [hw, ha]

/-- WHAT POINT `t` WRITES BACK is block `t` of `layer` of the argument arrays. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero zeros]
  simp only [View.ld_unit_zero (S := S256x1024) zeros, View.ld_unit_zero (S := S256x16) zeros, View.ld_unit_zero (S := S1024x16) zeros,
    View.ld_unit_zero (S := S1x1024) zeros, View.ld_unit_zero (S := S1024x256) zeros, View.ld_unit_zero (S := S1x256) zeros]
  rw [blkAct, blkLat, blkPrj]
  obtain ⟨-, -, -, -, -, -, -, -, -, -, -, -, e0, e1, ht⟩ := idx_facts t
  funext y
  obtain ⟨p, q, rfl⟩ : ∃ (p q : Fin 256), y = ix2 p q := ⟨y 0, y 1, eq_ix2 y⟩
  have ho : 256 * t.val + q.val < 1024 := by have := q.isLt; omega
  show k0_pay1 (F := Ideal) _ _ _ (iblk m c 3 t) (iblk m c 4 t) (iblk m c 5 t) (ix2 p q) = result m c (((cfg0.win 6).blk t).view.emb (ix2 p q))
  have hemb : ((cfg0.win 6).blk t).view.emb (ix2 p q) = ix2 p (⟨256 * t.val + q.val, ho⟩ : Fin 1024) := by
    funext a; apply Fin.ext
    match a with
    | ⟨0, _⟩ => show win0_6.index t (0 : Fin 2) * 256 + 1 * p.val = p.val; omega
    | ⟨1, _⟩ => show win0_6.index t (1 : Fin 2) * 256 + 1 * q.val = 256 * t.val + q.val; omega
  rw [hemb]
  exact tile_eq _ _ _ _ _ _ _ _ _ t.val (fun i => blkOff m c t i) (fun i q o ho => blkWgt m c t i q o ho) (fun q o ho => blkBias m c t q o ho) p q _ rfl

/-- An index of the array is in point `t`'s block iff each coordinate is in the block's range on its axis. -/
theorem mem_blk (t : Fin cfg0.N) (i : S256x1024.Idx) :
    i ∈ ((cfg0.win 6).blk t).view.set ↔ ∀ a : Fin 2, win0_6.index t a * S256x256.size a ≤ (i a).val ∧ (i a).val < win0_6.index t a * S256x256.size a + S256x256.size a := by
  show i ∈ ((View.whole main_v2).slice (win0_6.rect t)).set ↔ _
  rw [View.set_slice_whole, Rect.mem_set_unit]
  exact Iff.rfl

/-- Every index of the array lies in some point's block: column `o` in column tile `o / 256`. -/
theorem cover (i : S256x1024.Idx) : ∃ t : Fin cfg0.N, (cfg0.win 6).flush t = true ∧ i ∈ ((cfg0.win 6).blk t).view.set := by
  have hi0 : (i 0).val < 256 := (i 0).isLt
  have hi1 : (i 1).val < 1024 := (i 1).isLt
  let t : Fin cfg0.N := ⟨(i 1).val / 256, by show (i 1).val / 256 < grid0.N; rw [N_0]; omega⟩
  obtain ⟨-, -, -, -, -, -, -, -, -, -, -, -, e0, e1, -⟩ := idx_facts t
  have ht : t.val = (i 1).val / 256 := rfl
  refine ⟨t, flush0_6 t, ?_⟩
  rw [mem_blk]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 256 ≤ (i 1).val ∧ (i 1).val < win0_6.index t (1 : Fin 2) * 256 + 256; omega

/-- THE ARRAY after the run is `layer` of the argument arrays. -/
theorem final (c : Dev nD) : (dats m 0 c).arrAt 6 cfg0.N = result m c :=
  (dats m 0 c).arrAt_eq_of_cover 6 (result m c) (fun t _ => flushed_eq m c t) cover

/-- The kernel's run: the result array ends at `layer` of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.KernelLayer

end
-- ==== Proof.lean ====
/-
  A linear layer with a per-sample modulated and demodulated weight, tiled over its output columns, against the same
  layer written as whole-array operations.

  With the modulation `s b i = (∑ l, z b l * A i l) + a i`, both programs compute, at `(b, o)`,
      `(∑ i, (x b i * s b i) * W i o) * rsqrt ((∑ i, (s b i * s b i) * (W i o * W i o)) + ε) + β o`
  (`Demod.layer`), with the same float word for `ε`. The kernel computes 256 output columns per grid point from the
  whole activations, latent and projection and one column tile of the weight and the bias (`KernelLayer`, over the tile
  read at an index in `TileEntry`); the reference transposes the projection, forms the modulation, and takes two whole
  matrix products (`RefLayer`). Over the extended reals the kernel's narrowings to half precision are the identity and a
  product into a zero accumulator is the plain sum, so the two results are the SAME sums of the SAME terms: no law of
  arithmetic beyond that is used, and the inputs' finiteness is never opened.

  The frames of the two kernel programs are the generated ones; the reference's frame is its generated run with the
  result dropped; the kernel's idealization rewrote no operation, so there is nothing to preserve.
-/
import proofs.«412335_j5171140624651_3_alg».proof.Defs
import proofs.«412335_j5171140624651_3_alg».proof.Proof.Gen.Kernel
import proofs.«412335_j5171140624651_3_alg».proof.Proof.Gen.Kernel.Skeleton
import proofs.«412335_j5171140624651_3_alg».proof.Proof.Gen.Kernel.Launch
import proofs.«412335_j5171140624651_3_alg».proof.Proof.Gen.Kernel.Points
import proofs.«412335_j5171140624651_3_alg».proof.Proof.Gen.Kernel.Frame
import proofs.«412335_j5171140624651_3_alg».proof.Proof.Gen.KernelIdeal
import proofs.«412335_j5171140624651_3_alg».proof.Proof.Gen.KernelIdeal.Skeleton
import proofs.«412335_j5171140624651_3_alg».proof.Proof.Gen.KernelIdeal.Launch
import proofs.«412335_j5171140624651_3_alg».proof.Proof.Gen.KernelIdeal.Points
import proofs.«412335_j5171140624651_3_alg».proof.Proof.Gen.KernelIdeal.Frame
import proofs.«412335_j5171140624651_3_alg».proof.Proof.Gen.ReferenceIdeal
import proofs.«412335_j5171140624651_3_alg».proof.Proof.Gen.Pre_finite_inputs
import proofs.«412335_j5171140624651_3_alg».proof.Proof.Gen.KernelIdeal.Value
import proofs.«412335_j5171140624651_3_alg».proof.Proof.Gen.ReferenceIdeal.Run
import proofs.«412335_j5171140624651_3_alg».proof.Proof.Gen.ReferenceIdeal.Read
import proofs.«412335_j5171140624651_3_alg».proof.Proof.RefLayer
import proofs.«412335_j5171140624651_3_alg».proof.Proof.KernelLayer
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments, both programs end with the result array at `Demod.layer` of those
    arguments: the kernel by its four column tiles, the reference by its operations read one at a time. -/
theorem algebraic : Cert.algebraic_KernelIdeal_ReferenceIdeal := by
  intro m ρ m' ρ' _ hagree
  refine ⟨fun c => Cert.KernelIdeal.KernelLayer.result m c, Cert.KernelIdeal.KernelLayer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefLayer.result_eq,
    (hagree c).1, (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
